-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S16384 : Shape := ⟨1, ![16384]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S16384x512 .f32) (main_arg1 : FVec F S16384x512 .f32) (main_arg2 : FVec F S16384 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S16384 .f32 := Host.absf main_arg2
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  main_v13
-- ==== Kernel.lean ====
abbrev S16384x512 : Shape := ⟨2, ![16384, 512]⟩
abbrev S16384 : Shape := ⟨1, ![16384]⟩
abbrev S1x16384 : Shape := ⟨2, ![1, 16384]⟩
abbrev S16384x1 : Shape := ⟨2, ![16384, 1]⟩
abbrev S1024x512 : Shape := ⟨2, ![1024, 512]⟩
abbrev S1x1024 : Shape := ⟨2, ![1, 1024]⟩
abbrev S1024x1 : Shape := ⟨2, ![1024, 1]⟩
abbrev S1024 : Shape := ⟨1, ![1024]⟩
abbrev S512x1024 : Shape := ⟨2, ![512, 1024]⟩
abbrev S1024x1024 : Shape := ⟨2, ![1024, 1024]⟩
abbrev S_ : Shape := ⟨0, ![]⟩

abbrev nBuf : Space → Nat
  | .hbm => 14
  | .vmem => 9
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384, .f32⟩
  | .hbm, ⟨3, _⟩ => ⟨S1x16384, .f32⟩
  | .hbm, ⟨4, _⟩ => ⟨S16384x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1x1024, .f32⟩
  | .local _ .vmem, ⟨5, _⟩ => ⟨S1x1024, .f32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v32 : BitVec 1 := Scalar.cmpi .eq arg1 c15_i32
  let v33 : BitVec 32 := Scalar.extui v32
  let c0_i32_14 : BitVec 32 := 0#32
  let v34 : BitVec 1 := Scalar.cmpi .ne v33 c0_i32_14
  v34

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S16384_S1x16384 : S16384.ShapeCasts S1x16384
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  reduces_S1024x512_S1024 : S1024x512.Reduces [1] S1024
  shapeCasts_S1024_S1024x1 : S1024.ShapeCasts S1024x1
  shapeCasts_S1024_S1x1024 : S1024.ShapeCasts S1x1024
  transposes_S1024x512_p1_0_S512x1024 : S1024x512.Transposes [1, 0] S512x1024
  broadcasts_S1024x1_S1024x1024 : S1024x1.Broadcasts S1024x1024
  broadcasts_S1x1024_S1024x1024 : S1x1024.Broadcasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  reduces_S1024x1024_S1024 : S1024x1024.Reduces [1] S1024
  reducesTo_S16384x1_S_d0_1 : S16384x1.ReducesTo [0, 1] S_
  h_S_ : 0 < S_.numel
  reducesTo_S16384_S_d0 : S16384.ReducesTo [0] S_
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .f32 = 32 ∨ (Rect.block (s := S16384x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S16384x512.size a
  hwx0_1 : ∀ i : grid0.Coords, EltTy.bits .f32 = 32 ∨ (Rect.block (s := S16384x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x16384.size a
  hwx0_2 : ∀ i : grid0.Coords, EltTy.bits .f32 = 32 ∨ (Rect.block (s := S1x16384) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S16384x1.size a
  hwx0_3 : ∀ i : grid0.Coords, EltTy.bits .f32 = 32 ∨ (Rect.block (s := S16384x1) S1024x1.size (cc0_transform_3 i) (hinb0_3 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16384x512 : Shape := ⟨2, ![16384, 512]⟩
abbrev S16384 : Shape := ⟨1, ![16384]⟩
abbrev S_ : Shape := ⟨0, ![]⟩
abbrev S16384x1 : Shape := ⟨2, ![16384, 1]⟩
abbrev S1x16384 : Shape := ⟨2, ![1, 16384]⟩
abbrev S16384x16384 : Shape := ⟨2, ![16384, 16384]⟩
abbrev S512x16384 : Shape := ⟨2, ![512, 16384]⟩

abbrev nBuf : Space → Nat
  | .hbm => 34
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384, .f32⟩
  | .hbm, ⟨3, _⟩ => ⟨S16384x512, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S16384x512, .f32⟩
  | .hbm, ⟨8, _⟩ => ⟨S_, .f32⟩
  | .hbm, ⟨9, _⟩ => ⟨S16384, .f32⟩
  | .hbm, ⟨10, _⟩ => ⟨S1x16384, .f32⟩
  | .hbm, ⟨11, _⟩ => ⟨S16384x16384, .f32⟩
  | .hbm, ⟨12, _⟩ => ⟨S16384x16384, .f32⟩
  | .hbm, ⟨13, _⟩ => ⟨S16384x16384, .f32⟩
  | .hbm, ⟨14, _⟩ => ⟨S512x16384, .f32⟩
  | .hbm, ⟨15, _⟩ => ⟨S16384x16384, .f32⟩
  | .hbm, ⟨16, _⟩ => ⟨S_, .f32⟩
  | .hbm, ⟨17, _⟩ => ⟨S16384x16384, .f32⟩
  | .hbm, ⟨18, _⟩ => ⟨S16384x16384, .f32⟩
  | .hbm, ⟨19, _⟩ => ⟨S16384x16384, .f32⟩
  | .hbm, ⟨20, _⟩ => ⟨S1x16384, .f32⟩
  | .hbm, ⟨21, _⟩ => ⟨S16384x16384, .f32⟩
  | .hbm, ⟨22, _⟩ => ⟨S16384x16384, .f32⟩
  | .hbm, ⟨23, _⟩ => ⟨S_, .f32⟩
  | .hbm, ⟨24, _⟩ => ⟨S16384, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_cst_6 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]

class Facts₀ : Prop where
  reducesTo_S16384x512_S16384_d1 : S16384x512.ReducesTo [1] S16384
  h_S_ : 0 < S_.numel
  bcast_S16384_S16384x1_0 : S16384.BroadcastsInDim S16384x1 (![0] : Fin 1 → Fin S16384x1.rank)
  bcast_S16384_S1x16384_1 : S16384.BroadcastsInDim S1x16384 (![1] : Fin 1 → Fin S1x16384.rank)
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  transposes_S16384x512_S512x16384_1_0 : S16384x512.Transposes [1, 0] S512x16384
  bcast_S_S16384x16384 : S_.BroadcastsInDim S16384x16384 (![] : Fin 0 → Fin S16384x16384.rank)
  reducesTo_S16384x16384_S16384_d1 : S16384x16384.ReducesTo [1] S16384
  reducesTo_S16384_S_d0 : S16384.ReducesTo [0] S_
  dot_S16384x512_S512x16384_S16384x16384_1_0_0_1_n_n_wf : DotDims.WF S16384x512 S512x16384 S16384x16384 [1] [0] [0] [1] [] []

variable [Facts₀]

def dot_S16384x512_S512x16384_S16384x16384_1_0_0_1_n_n : DotDims S16384x512 S512x16384 S16384x16384 where
  lhsContracting := [1]
  rhsContracting := [0]
  lhsNonContracting := [0]
  rhsNonContracting := [1]
  lhsBatch := []
  rhsBatch := []
  wf := dot_S16384x512_S512x16384_S16384x16384_1_0_0_1_n_n_wf

class Facts : Prop extends Facts₀ where

variable [Facts]
-- ==== Proof.SemidualSpec.lean ====
/-
  The specification both programs are read against, over plain coordinate-indexed families of extended reals.

  For points `x r` (rows of `X`) and `y c` (rows of `Y`) in 512 dimensions and a potential `P`, the cost of the pair
  `(r, c)` is the squared distance written out, `|x r|² + |y c|² − 2·⟨x r, y c⟩`, less the potential at `c`; a row's
  value is the minimum of its costs over all 16384 columns, taken from `+∞`.

  Two facts about minima are proved here, both lattice facts (no finiteness of anything is used):
  a minimum from `+∞` over all columns is what one gets by walking the sixteen consecutive blocks of 1024 columns
  and keeping the running minimum (`runMin_last`); and the characterisation of that running minimum by its
  lower bounds (`le_runMin_iff`).
-/
import Idealize.ShloMosaic.PureOps.Ideal
import Mathlib.Data.Finset.Fold
import Mathlib.Order.Basic

noncomputable section

namespace Cert.Semidual

open Idealize.ShloMosaic

/-- The literal `2.0`, kept as its pattern. -/
abbrev two : EReal := Ideal.ofBits .f32 0x40000000#32
/-- The literal `+∞` every minimum starts from, kept as its pattern. -/
abbrev pinf : EReal := Ideal.ofBits .f32 0x7F800000#32

section Cost
variable (X Y : Fin 16384 → Fin 512 → EReal) (P : Fin 16384 → EReal)

/-- The cost of pairing row `r` with column `c`: `(|x r|² + |y c|²) − 2·⟨x r, y c⟩ − P c`, grouped as both programs group it. -/
def cost (r c : Fin 16384) : EReal :=
  ((∑ k : Fin 512, X r k * X r k) + (∑ k : Fin 512, Y c k * Y c k) - two * (∑ k : Fin 512, X r k * Y c k)) - P c

/-- A row's value: the least cost over all columns, from `+∞`. -/
def rowMin (r : Fin 16384) : EReal := (Finset.univ : Finset (Fin 16384)).fold min pinf (cost X Y P r)

end Cost

/-! ## A minimum over all columns, block by block -/

/-- Column `c` of block `j`: the blocks are consecutive runs of 1024 columns. -/
def col (j : Fin 16) (c : Fin 1024) : Fin 16384 := ⟨1024 * j.val + c.val, by have := j.isLt; have := c.isLt; omega⟩

theorem col_val (j : Fin 16) (c : Fin 1024) : (col j c).val = 1024 * j.val + c.val := rfl

variable (f : Fin 16384 → EReal)

/-- The least value of `f` on block `j`, from `+∞`. -/
def blockMin (j : Fin 16) : EReal := (Finset.univ : Finset (Fin 1024)).fold min pinf fun c => f (col j c)

/-- The running minimum after blocks `0, …, n`: it starts from `+∞` and takes each block's least value in turn. -/
def runMin : (n : ℕ) → n < 16 → EReal
  | 0, h => min pinf (blockMin f ⟨0, h⟩)
  | n + 1, h => min (runMin n (Nat.lt_of_succ_lt h)) (blockMin f ⟨n + 1, h⟩)

theorem runMin_zero (h : 0 < 16) : runMin f 0 h = min pinf (blockMin f ⟨0, h⟩) := rfl
theorem runMin_succ (n : ℕ) (h : n + 1 < 16) :
    runMin f (n + 1) h = min (runMin f n (Nat.lt_of_succ_lt h)) (blockMin f ⟨n + 1, h⟩) := rfl

/-- The running minimum does not depend on how its block number is written. -/
theorem runMin_congr {n n' : ℕ} (e : n = n') (h : n < 16) (h' : n' < 16) : runMin f n h = runMin f n' h' := by
  subst e; rfl

/-- A block's least value is bounded below exactly by the bounds of `+∞` and of every value on the block. -/
theorem le_blockMin_iff (j : Fin 16) (b : EReal) : b ≤ blockMin f j ↔ b ≤ pinf ∧ ∀ c : Fin 1024, b ≤ f (col j c) := by
  unfold blockMin
  rw [Finset.le_fold_min]
  exact ⟨fun ⟨h0, h⟩ => ⟨h0, fun c => h c (Finset.mem_univ c)⟩, fun ⟨h0, h⟩ => ⟨h0, fun c _ => h c⟩⟩

/-- Every column below `1024·(n+1)` is a column of the first `n` blocks or of block `n`. -/
theorem col_cases (n : ℕ) (hn : n < 16) (c : Fin 16384) (hc : c.val < 1024 * (n + 1)) :
    c.val < 1024 * n ∨ ∃ c' : Fin 1024, c = col ⟨n, hn⟩ c' := by
  by_cases h : c.val < 1024 * n
  · exact Or.inl h
  · exact Or.inr ⟨⟨c.val - 1024 * n, by omega⟩, Fin.ext (by rw [col_val]; show c.val = 1024 * n + (c.val - 1024 * n); omega)⟩

/-- The lower bounds of the running minimum after block `n`: those of `+∞` and of every value on the columns walked. -/
theorem le_runMin_iff (b : EReal) : ∀ (n : ℕ) (h : n < 16),
    b ≤ runMin f n h ↔ b ≤ pinf ∧ ∀ c : Fin 16384, c.val < 1024 * (n + 1) → b ≤ f c
  | 0, h => by
    rw [runMin_zero, le_min_iff, le_blockMin_iff]
    constructor
    · rintro ⟨h0, -, hb⟩
      refine ⟨h0, fun c hc => ?_⟩
      rcases col_cases 0 h c hc with h' | ⟨c', rfl⟩
      · omega
      · exact hb c'
    · rintro ⟨h0, hb⟩
      exact ⟨h0, h0, fun c' => hb _ (by rw [col_val]; have := c'.isLt; show 1024 * 0 + c'.val < 1024 * (0 + 1); omega)⟩
  | n + 1, h => by
    rw [runMin_succ, le_min_iff, le_runMin_iff b n (Nat.lt_of_succ_lt h), le_blockMin_iff]
    constructor
    · rintro ⟨⟨h0, ha⟩, -, hb⟩
      refine ⟨h0, fun c hc => ?_⟩
      rcases col_cases (n + 1) h c hc with h' | ⟨c', rfl⟩
      · exact ha c h'
      · exact hb c'
    · rintro ⟨h0, hb⟩
      refine ⟨⟨h0, fun c hc => hb c (by omega)⟩, h0, fun c' => hb _ ?_⟩
      rw [col_val]; have := c'.isLt; show 1024 * (n + 1) + c'.val < 1024 * (n + 1 + 1); omega

/-- After the last block the running minimum is the minimum over all columns. -/
theorem runMin_last (h : 15 < 16) : runMin f 15 h = (Finset.univ : Finset (Fin 16384)).fold min pinf f := by
  refine eq_of_forall_le_iff fun b => ?_
  rw [le_runMin_iff, Finset.le_fold_min]
  constructor
  · rintro ⟨h0, hb⟩
    exact ⟨h0, fun c _ => hb c (by have := c.isLt; omega)⟩
  · rintro ⟨h0, hb⟩
    exact ⟨h0, fun c _ => hb c (Finset.mem_univ c)⟩

end Cert.Semidual

end
-- ==== Proof.LibColumnForms.lean ====
/-
  Column forms: layout readings and sums for a vector kept as a column.

  A reduction along rows that keeps its axis leaves a column `[a, 1]`. Reading it needs two layout facts the row
  forms have counterparts of — a vector `[a]` cast to a column reads the vector, and a column broadcast over `b`
  columns reads the column — and summing it needs one: a sum over a column's indices is the sum over its rows. The
  rank-1 counterpart of the last (a sum over a vector's indices is the sum over its coordinate) is here too.
  All for symbolic extents.
-/
import Idealize.ShloMosaic.Lib.ValueIdx
import Idealize.ShloMosaic.Lib.Pipeline.Value

noncomputable section

namespace Cert.Lib.ColumnForms

open Idealize.ShloMosaic Idealize.ShloMosaic.ValueIdx

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A rank-1 index set is its one coordinate's range … -/
def idxEquiv1 {n : ℕ} : (⟨1, ![n]⟩ : Shape).Idx ≃ Fin n where
  toFun i := i 0
  invFun := ix1
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- A sum over a column `[n, 1]` is the sum over its rows. -/
theorem sum_col {M : Type*} [AddCommMonoid M] {n : ℕ} (f : (⟨2, ![n, 1]⟩ : Shape).Idx → M) :
    ∑ i, f i = ∑ a : Fin n, f (ix2 a (0 : Fin 1)) := by
  rw [sum_idx2]
  exact Finset.sum_congr rfl fun a _ => Fin.sum_univ_one _

end Cert.Lib.ColumnForms

end
-- ==== Proof.KernelPayload.lean ====
/-
  The arithmetic of one grid point, read at a row, over the extended reals.

  At a point the body holds a block `x` of 1024 rows of `X`, a block `y` of 1024 rows of `Y`, the matching 1024
  potentials `p` (a row vector) and the column `acc` carried from the point before. What it stores back at row `r`
  is the lesser of `acc r` and the least, over the block's 1024 columns `c`, of
  `(|x r|² + |y c|²) − 2·⟨x r, y c⟩ − p c`, that least value taken from `+∞`.

  The pieces: a row's sum of squares is a lane sum of the squared block; the inner products are the matrix product
  of `x` with `y` transposed into a zero accumulator (a change of float format is the identity here); the
  norms and potentials are broadcast along rows or columns; the least value is a lane minimum.
-/
import proofs.«116589_j26010321944637_1_alg».proof.Proof.Gen.KernelIdeal.Skeleton
import proofs.«116589_j26010321944637_1_alg».proof.Proof.SemidualSpec
import proofs.«116589_j26010321944637_1_alg».proof.Proof.LibColumnForms
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx Cert.Semidual Cert.Lib.ColumnForms

/-! ## The three reductions of the body -/

/-- A row's sum of squares: the lane sum of the squared block at row `r`. -/
theorem rowsq_apply (v : FVec Ideal S1024x512 .f32) (r : Fin 1024) :
    multiReduction .add [1] S1024 (mulf v v) 0x00000000#32 reduces_S1024x512_S1024 (.inl rfl) rfl (ix1 r)
      = ∑ k : Fin 512, v (ix2 r k) * v (ix2 r k) := by
  refine (Ideal.multiReduction_add_single (mulf v v) 0x00000000#32 reduces_S1024x512_S1024 (.inl rfl) rfl (ix1 r)).trans ?_
  refine Finset.sum_congr rfl fun k _ => ?_
  have e : reduces_S1024x512_S1024.lift (ix1 r) k = ix2 r k :=
    funext fun a => Fin.ext (by match a with | ⟨0, _⟩ => rfl | ⟨1, _⟩ => rfl)
  rw [e]; rfl

/-- The least value along a row of a square block, from `+∞`: the lane minimum at row `r`. -/
theorem rowmin_apply (w : FVec Ideal S1024x1024 .f32) (r : Fin 1024) :
    multiReduction .minimumf [1] S1024 w 0x7F800000#32 reduces_S1024x1024_S1024 (.inl rfl) rfl (ix1 r)
      = (Finset.univ : Finset (Fin 1024)).fold min pinf fun c => w (ix2 r c) := by
  refine (multiReduction_minimumf_eq_fold w 0x7F800000#32 reduces_S1024x1024_S1024 (.inl rfl) rfl (ix1 r)).trans ?_
  refine (reduces_S1024x1024_S1024.fold_filter_drop_single FloatOps.minimumf (FloatOps.ofBits .f32 0x7F800000#32) w (ix1 r)).trans ?_
  have e : (w ∘ reduces_S1024x1024_S1024.lift (ix1 r)) = fun c : Fin 1024 => w (ix2 r c) :=
    funext fun c => congrArg w (funext fun a => Fin.ext (by match a with | ⟨0, _⟩ => rfl | ⟨1, _⟩ => rfl))
  rw [e]; rfl

/-! ## The inner products: the block product read at `(r, c)` -/

local notation "𝔻" => dot_S1024x512_S512x1024_S1024x1024_1_0_0_1_n_n

theorem lhs_dot_0 (i : S1024x1024.Idx) (q : dot_S1024x512_S512x1024_S1024x1024_1_0_0_1_n_n.contr.Idx) :
    (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem lhs_dot_1 (i : S1024x1024.Idx) (q : dot_S1024x512_S512x1024_S1024x1024_1_0_0_1_n_n.contr.Idx) :
    (dot_S1024x512_S512x1024_S1024x1024_1_0_0_1_n_n.lhsIdx i q 1).val = (q ⟨0, by decide⟩).val :=
  dot_S1024x512_S512x1024_S1024x1024_1_0_0_1_n_n.lhsIdx_val_of_single rfl i q
theorem rhs_dot_0 (i : S1024x1024.Idx) (q : dot_S1024x512_S512x1024_S1024x1024_1_0_0_1_n_n.contr.Idx) :
    (dot_S1024x512_S512x1024_S1024x1024_1_0_0_1_n_n.rhsIdx i q 0).val = (q ⟨0, by decide⟩).val :=
  dot_S1024x512_S512x1024_S1024x1024_1_0_0_1_n_n.rhsIdx_val_of_single rfl i q
theorem rhs_dot_1 (i : S1024x1024.Idx) (q : dot_S1024x512_S512x1024_S1024x1024_1_0_0_1_n_n.contr.Idx) :
    (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- The block product into a zero accumulator, at `(r, c)`: the sum over the 512 dimensions of left row `r` times right column `c`. -/
theorem dot_apply (l : FVec Ideal S1024x512 .bf16) (rr : FVec Ideal S512x1024 .bf16) (r c : Fin 1024) :
    matmul dot_S1024x512_S512x1024_S1024x1024_1_0_0_1_n_n none l rr (constant S1024x1024 .f32 0x00000000#32) (ix2 r c)
      = ∑ k : Fin 512, l (ix2 r k) * rr (ix2 k c) := by
  show FloatOps.matmul _ _ _ _ _ _ = _
  rw [Ideal.matmul_constant_zero_apply, ← Equiv.sum_comp (ValueIdx.contrEquiv1 dot_S1024x512_S512x1024_S1024x1024_1_0_0_1_n_n 512 rfl rfl).symm]
  refine Finset.sum_congr rfl fun k _ => ?_
  have hk := ValueIdx.contrEquiv1_symm_val dot_S1024x512_S512x1024_S1024x1024_1_0_0_1_n_n 512 rfl rfl k
  have el : dot_S1024x512_S512x1024_S1024x1024_1_0_0_1_n_n.lhsIdx (ix2 r c) ((ValueIdx.contrEquiv1 dot_S1024x512_S512x1024_S1024x1024_1_0_0_1_n_n 512 rfl rfl).symm k) = ix2 r k := funext fun a => Fin.ext (by
    match a with
    | ⟨0, _⟩ => exact lhs_dot_0 _ _
    | ⟨1, _⟩ => exact (lhs_dot_1 _ _).trans hk)
  have er : dot_S1024x512_S512x1024_S1024x1024_1_0_0_1_n_n.rhsIdx (ix2 r c) ((ValueIdx.contrEquiv1 dot_S1024x512_S512x1024_S1024x1024_1_0_0_1_n_n 512 rfl rfl).symm k) = ix2 k c := funext fun a => Fin.ext (by
    match a with
    | ⟨0, _⟩ => exact (rhs_dot_0 _ _).trans hk
    | ⟨1, _⟩ => exact rhs_dot_1 _ _)
  rw [el, er]

/-! ## The store's payload at a row -/

/-- The cost of the pair (row `r` of the block `x`, row `c` of the block `y`) less the potential `p c`, as the body computes it. -/
def blockCost (x y : Vec Ideal S1024x512 .f32) (p : Vec Ideal S1x1024 .f32) (r c : Fin 1024) : EReal :=
  ((∑ k : Fin 512, x (ix2 r k) * x (ix2 r k)) + (∑ k : Fin 512, y (ix2 c k) * y (ix2 c k))
      - two * (∑ k : Fin 512, x (ix2 r k) * y (ix2 c k))) - p (ix2 (0 : Fin 1) c)

/-- What the body stores back into the carried column, at row `r`: the lesser of what it carried there and the least
    cost over the block's columns. -/
theorem pay2_apply (x y : Vec Ideal S1024x512 .f32) (p : Vec Ideal S1x1024 .f32) (acc : Vec Ideal S1024x1 .f32) (r : Fin 1024) :
    k0_pay2 (F := Ideal) x y p acc (ix2 r (0 : Fin 1))
      = min (acc (ix2 r (0 : Fin 1))) ((Finset.univ : Finset (Fin 1024)).fold min pinf (blockCost x y p r)) := by
  unfold k0_pay2
  dsimp only
  rw [shapeCast_self]
  refine (minimumf_apply _ _ _).trans (congrArg (min _) ?_)
  refine (shapeCast_a_a1_apply _ _ r 0).trans ?_
  refine (rowmin_apply _ r).trans (congrArg (Finset.fold min pinf · Finset.univ) (funext fun c => ?_))
  unfold blockCost
  refine (subf_apply _ _ _).trans ?_
  refine congr (congrArg HSub.hSub ?_) ?_
  · refine (subf_apply _ _ _).trans (congr (congrArg HSub.hSub ?_) ?_)
    · refine (addf_apply _ _ _).trans (congr (congrArg HAdd.hAdd ?_) ?_)
      · exact (broadcastTo_a1_ab_apply _ _ r c).trans ((shapeCast_a_a1_apply _ _ r 0).trans (rowsq_apply _ r))
      · exact (broadcastTo_1b_ab_apply _ _ r c).trans ((shapeCast_a_1a_apply _ _ 0 c).trans (rowsq_apply _ c))
    · refine (mulf_apply _ _ _).trans (congrArg (two * ·) ?_)
      refine (dot_apply _ _ r c).trans (Finset.sum_congr rfl fun k _ => ?_)
      exact congrArg (x (ix2 r k) * ·) (transpose_ix2_apply _ _ k c)
  · exact (broadcastTo_1b_ab_apply _ _ r c).trans (by rw [shapeCast_self])

/-- The column the reset stores: `+∞` everywhere. -/
theorem pay1_apply (j : S1024x1.Idx) : k0_pay1 (F := Ideal) j = pinf := by
  unfold k0_pay1
  rw [shapeCast_self]
  rfl

end Cert.KernelIdeal.Payload

end
-- ==== Proof.KernelPieces.lean ====
/-
  What the body leaves behind at a grid point, case by case, as the store's payload of the blocks it loaded.

  At the first column block of a row block (case A) the carried column is first reset to `+∞` and then updated, so
  it ends at the payload computed over the reset column. At a later column block (cases B and C) it ends at the
  payload computed over what the point before left. At the last column block (case C) the body also copies the
  carried column, just updated, into the output block.
-/
import proofs.«116589_j26010321944637_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- A later column block, not the last: the carried column ends at the payload over what it held. -/
theorem scratch_B (c : Dev nD) (i : grid0.Coords) (a2 : Memref sig .tc .vmem S1024x512 .f32) (h2 : a2.IsWhole)
    (a3 : Memref sig .tc .vmem S1024x512 .f32) (h3 : a3.IsWhole) (a4 : Memref sig .tc .vmem S1x1024 .f32) (h4 : a4.IsWhole)
    (a5 : Memref sig .tc .vmem S1024x1 .f32) (h5 : a5.IsWhole) (a6 : Memref sig .tc .vmem S1024x1 .f32) (h6 : a6.IsWhole)
    (hc0 : ¬cond0_0 i) (hc1 : ¬cond0_1 i)
    (x0 x1 : Vec F S1024x512 .f32) (x2 : Vec F S1x1024 .f32) (xs0 : Vec F S1024x1 .f32) :
    sout0_B_0 c i a2 h2 a3 h3 a4 h4 a5 h5 a6 h6 hc0 hc1 x0 x1 x2 xs0 = k0_pay2 x0 x1 x2 xs0 := by
  unfold sout0_B_0
  rw [View.read_writes_eq_canon _ _ _ (scover0_B_0 c i a2 h2 a3 h3 a4 h4 a5 h5 a6 h6 hc0 hc1 x0 x1 x2 xs0)]
  unfold kernelRun0_B
  dsimp only
  sl_unfold_words
  rw [View.canon_unit_zero hz]
  simp only [View.readAt_eq_ld, h2.read_unread, h3.read_unread, h4.read_unread, h6.read_unread,
    View.ld_unit_zero (S := S1024x512) hz, View.ld_unit_zero (S := S1x1024) hz, View.ld_unit_zero (S := S1024x1) hz]

/-- The first column block: the carried column, reset to `+∞` and then updated, ends at the payload over the reset column. -/
theorem scratch_A (c : Dev nD) (i : grid0.Coords) (a2 : Memref sig .tc .vmem S1024x512 .f32) (h2 : a2.IsWhole)
    (a3 : Memref sig .tc .vmem S1024x512 .f32) (h3 : a3.IsWhole) (a4 : Memref sig .tc .vmem S1x1024 .f32) (h4 : a4.IsWhole)
    (a5 : Memref sig .tc .vmem S1024x1 .f32) (h5 : a5.IsWhole) (a6 : Memref sig .tc .vmem S1024x1 .f32) (h6 : a6.IsWhole)
    (hc0 : cond0_0 i) (hc1 : ¬cond0_1 i)
    (x0 x1 : Vec F S1024x512 .f32) (x2 : Vec F S1x1024 .f32) :
    sout0_A_0 c i a2 h2 a3 h3 a4 h4 a5 h5 a6 h6 hc0 hc1 x0 x1 x2 = k0_pay2 x0 x1 x2 (k0_pay1 (F := F)) := by
  unfold sout0_A_0
  rw [View.read_writes_eq_canon _ _ _ (scover0_A_0 c i a2 h2 a3 h3 a4 h4 a5 h5 a6 h6 hc0 hc1 x0 x1 x2)]
  unfold kernelRun0_A
  dsimp only
  sl_unfold_words
  rw [View.canon_cons_unit_zero (S := S1024x1) hz, View.readCov_unit_zero (S := S1024x1) _ hz]
  simp only [View.readAt_eq_ld, h2.read_unread, h3.read_unread, h4.read_unread,
    View.ld_unit_zero (S := S1024x512) hz, View.ld_unit_zero (S := S1x1024) hz, View.ld_unit_zero (S := S1024x1) hz]

/-- The last column block: the carried column ends at the payload over what it held … -/
theorem scratch_C (c : Dev nD) (i : grid0.Coords) (a2 : Memref sig .tc .vmem S1024x512 .f32) (h2 : a2.IsWhole)
    (a3 : Memref sig .tc .vmem S1024x512 .f32) (h3 : a3.IsWhole) (a4 : Memref sig .tc .vmem S1x1024 .f32) (h4 : a4.IsWhole)
    (a5 : Memref sig .tc .vmem S1024x1 .f32) (h5 : a5.IsWhole) (a6 : Memref sig .tc .vmem S1024x1 .f32) (h6 : a6.IsWhole)
    (hc0 : ¬cond0_0 i) (hc1 : cond0_1 i)
    (x0 x1 : Vec F S1024x512 .f32) (x2 : Vec F S1x1024 .f32) (xs0 : Vec F S1024x1 .f32) :
    sout0_C_0 c i a2 h2 a3 h3 a4 h4 a5 h5 a6 h6 hc0 hc1 x0 x1 x2 xs0 = k0_pay2 x0 x1 x2 xs0 := by
  unfold sout0_C_0
  rw [View.read_writes_eq_canon _ _ _ (scover0_C_0 c i a2 h2 a3 h3 a4 h4 a5 h5 a6 h6 hc0 hc1 x0 x1 x2 xs0)]
  unfold kernelRun0_C
  dsimp only
  sl_unfold_words
  rw [View.canon_unit_zero hz]
  simp only [View.readAt_eq_ld, h2.read_unread, h3.read_unread, h4.read_unread, h6.read_unread,
    View.ld_unit_zero (S := S1024x512) hz, View.ld_unit_zero (S := S1x1024) hz, View.ld_unit_zero (S := S1024x1) hz]

/-- … and the output block is a copy of it. -/
theorem out_C (c : Dev nD) (i : grid0.Coords) (a2 : Memref sig .tc .vmem S1024x512 .f32) (h2 : a2.IsWhole)
    (a3 : Memref sig .tc .vmem S1024x512 .f32) (h3 : a3.IsWhole) (a4 : Memref sig .tc .vmem S1x1024 .f32) (h4 : a4.IsWhole)
    (a5 : Memref sig .tc .vmem S1024x1 .f32) (h5 : a5.IsWhole) (a6 : Memref sig .tc .vmem S1024x1 .f32) (h6 : a6.IsWhole)
    (hc0 : ¬cond0_0 i) (hc1 : cond0_1 i)
    (x0 x1 : Vec F S1024x512 .f32) (x2 : Vec F S1x1024 .f32) (xs0 : Vec F S1024x1 .f32) :
    out0_C_3 c i a2 h2 a3 h3 a4 h4 a5 h5 a6 h6 hc0 hc1 x0 x1 x2 xs0 = k0_pay2 x0 x1 x2 xs0 := by
  unfold out0_C_3
  rw [View.read_writes_eq_canon _ _ _ (cover0_C_3 c i a2 h2 a3 h3 a4 h4 a5 h5 a6 h6 hc0 hc1 x0 x1 x2 xs0)]
  unfold kernelRun0_C
  dsimp only
  sl_unfold_words
  rw [View.canon_unit_zero hz]
  simp only [View.readAt_eq_ld, h2.read_unread, h3.read_unread, h4.read_unread, h6.read_unread,
    View.readCov_unit_zero (S := S1024x1) _ hz,
    View.ld_unit_zero (S := S1024x512) hz, View.ld_unit_zero (S := S1x1024) hz, View.ld_unit_zero (S := S1024x1) hz]

end Cert.KernelIdeal.Pieces

end
-- ==== Proof.KernelBlocks.lean ====
/-
  The blocks a grid point loads, as entries of the argument arrays.

  The grid has 16 × 16 points; point `t` is row block `t / 16` and column block `t % 16`. The block of `X` at `t` is rows
  `1024·(t/16) + r`, the block of `Y` is rows `1024·(t%16) + c`, and the block of potentials is entries `1024·(t%16) + c`
  of the potential vector, which the program first lays out as one row.
-/
import proofs.«116589_j26010321944637_1_alg».proof.Proof.Gen.KernelIdeal.Frame
import proofs.«116589_j26010321944637_1_alg».proof.Proof.SemidualSpec
import Idealize.ShloMosaic.Lib.ValueIdx
import Idealize.ShloMosaic.Lib.ValueLayout
import Idealize.ShloMosaic.Lib.Pipeline.Value
import Idealize.ShloMosaic.Lib.StableHlo.Run

noncomputable section

open Idealize.ShloMosaic Idealize.ShloMosaic.TcCoe Idealize.SL.Sem

namespace Cert.KernelIdeal.Blocks

open Cert.KernelIdeal Cert.KernelIdeal.Gen Idealize.ShloMosaic.ValueIdx

variable (m : (ℓ : Loc nD τ sig) → Buf (Elt Ideal) ℓ)

/-- The three blocks a point loads, at their literal types. -/
abbrev xblk (c : Dev nD) (t : Fin cfg0.N) : Vec Ideal S1024x512 .f32 := iblk m c 0 t
abbrev yblk (c : Dev nD) (t : Fin cfg0.N) : Vec Ideal S1024x512 .f32 := iblk m c 1 t
abbrev pblk (c : Dev nD) (t : Fin cfg0.N) : Vec Ideal S1x1024 .f32 := iblk m c 2 t

/-- The arguments as coordinate-indexed families. -/
def X (c : Dev nD) (r : Fin 16384) (k : Fin 512) : EReal := m ((c.tc : Thread nD τ).loc main_arg0) (ix2 r k)
def Y (c : Dev nD) (r : Fin 16384) (k : Fin 512) : EReal := m ((c.tc : Thread nD τ).loc main_arg1) (ix2 r k)
def P (c : Dev nD) (j : Fin 16384) : EReal := m ((c.tc : Thread nD τ).loc main_arg2) (ix1 j)

/-- The printed index maps, decided over the grid: a point's row block and column block. -/
theorem idx_facts : ∀ t : Fin cfg0.N, win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = 0 ∧ win0_2.index t (1 : Fin 2) = t.val % 16
    ∧ win0_3.index t (0 : Fin 2) = t.val / 16 ∧ win0_3.index t (1 : Fin 2) = 0 :=
  (by decide +kernel : ∀ t : Fin grid0.N, _)

/-- The potentials laid out as one row are the potentials. -/
theorem prow_apply (c : Dev nD) (u : Fin 1) (j : Fin 16384) : V m c main_v0 (ix2 u j) = P m c j := by
  have e : (V m c main_v0 : S1x16384.Idx → EReal)
      = shapeCast S1x16384 (m ((c.tc : Thread nD τ).loc main_arg2)) shapeCasts_S16384_S1x16384 := by
    show StableHlo.after hostOps0 (fun b => m (c, b)) (Proc.devRef .tc main_v0) = _
    after_results
    rfl
  rw [e]
  exact shapeCast_a_1a_apply _ _ u j

/-- Row `r` of the point's block of `X` is row `1024·(t/16) + r` of `X`. -/
theorem xblk_apply (c : Dev nD) (t : Fin cfg0.N) (r : Fin 1024) (k : Fin 512) (R : Fin 16384)
    (hR : R.val = 1024 * (t.val / 16) + r.val) : xblk m c t (ix2 r k) = X m c R k := by
  obtain ⟨e0, e1, -⟩ := idx_facts t
  unfold X
  rw [← V_main_arg0 m c]
  show V m c main_arg0 (((cfg0.win 0).blk t).view.emb (ix2 r k)) = V m c main_arg0 (ix2 R k)
  refine congrArg _ (funext fun a => Fin.ext ?_)
  match a with
  | ⟨0, _⟩ => show win0_0.index t (0 : Fin 2) * 1024 + 1 * r.val = R.val; omega
  | ⟨1, _⟩ => show win0_0.index t (1 : Fin 2) * 512 + 1 * k.val = k.val; omega

/-- Row `cc` of the point's block of `Y` is row `1024·(t%16) + cc` of `Y`. -/
theorem yblk_apply (c : Dev nD) (t : Fin cfg0.N) (cc : Fin 1024) (k : Fin 512) (C : Fin 16384)
    (hC : C.val = 1024 * (t.val % 16) + cc.val) : yblk m c t (ix2 cc k) = Y m c C k := by
  obtain ⟨-, -, e0, e1, -⟩ := idx_facts t
  unfold Y
  rw [← V_main_arg1 m c]
  show V m c main_arg1 (((cfg0.win 1).blk t).view.emb (ix2 cc k)) = V m c main_arg1 (ix2 C k)
  refine congrArg _ (funext fun a => Fin.ext ?_)
  match a with
  | ⟨0, _⟩ => show win0_1.index t (0 : Fin 2) * 1024 + 1 * cc.val = C.val; omega
  | ⟨1, _⟩ => show win0_1.index t (1 : Fin 2) * 512 + 1 * k.val = k.val; omega

/-- Entry `cc` of the point's block of potentials is potential `1024·(t%16) + cc`. -/
theorem pblk_apply (c : Dev nD) (t : Fin cfg0.N) (cc : Fin 1024) (C : Fin 16384)
    (hC : C.val = 1024 * (t.val % 16) + cc.val) : pblk m c t (ix2 (0 : Fin 1) cc) = P m c C := by
  obtain ⟨-, -, -, -, e0, e1, -⟩ := idx_facts t
  rw [← prow_apply m c 0 C]
  show V m c main_v0 (((cfg0.win 2).blk t).view.emb (ix2 (0 : Fin 1) cc)) = V m c main_v0 (ix2 (0 : Fin 1) C)
  refine congrArg _ (funext fun a => Fin.ext ?_)
  match a with
  | ⟨0, _⟩ => show win0_2.index t (0 : Fin 2) * 1 + 1 * 0 = 0; omega
  | ⟨1, _⟩ => show win0_2.index t (1 : Fin 2) * 1024 + 1 * cc.val = C.val; omega

end Cert.KernelIdeal.Blocks

end
-- ==== Proof.KernelValue.lean ====
/-
  What the kernel's run leaves in its result array and in the program's result.

  Within a row block the carried column, after column block `j`, holds at row `r` the running minimum of that row's
  costs over the columns of blocks `0, …, j` (by induction over the grid's points: at the first column block it is
  reset to `+∞` before it is updated; at every later one it is updated over what the point before left). After the
  last column block the body copies the column into the output block, so each block of the result array is the
  rows' minima over all columns; the sixteen flushed blocks tile the array. The program then averages the array and
  the potentials and adds the two averages.
-/
import proofs.«116589_j26010321944637_1_alg».proof.Proof.KernelPayload
import proofs.«116589_j26010321944637_1_alg».proof.Proof.KernelPieces
import proofs.«116589_j26010321944637_1_alg».proof.Proof.KernelBlocks
import Idealize.ShloMosaic.Lib.Pipeline.Value
import Idealize.ShloMosaic.Lib.StableHlo.Run

noncomputable section

open Idealize.ShloMosaic Idealize.ShloMosaic.TcCoe Idealize.SL.Sem
open Idealize.ShloMosaic.Pipeline (Dat)

namespace Cert.KernelIdeal.RowMin

open Cert.KernelIdeal Cert.KernelIdeal.Gen Idealize.ShloMosaic.ValueIdx Cert.Semidual
open Cert.KernelIdeal.Blocks Cert.KernelIdeal.Payload Cert.KernelIdeal.Pieces

variable (m : (ℓ : Loc nD τ sig) → Buf (Elt Ideal) ℓ) (ρ : Dev nD → PrngReg)

/-- Row `R`'s costs, of the arguments as launched. -/
abbrev rowCost (c : Dev nD) (R : Fin 16384) : Fin 16384 → EReal := cost (X m c) (Y m c) (P m c) R

theorem N_eq : cfg0.N = 256 := N_0

/-- The point's column block as a block number. -/
abbrev cb (t : Fin cfg0.N) : Fin 16 := ⟨t.val % 16, Nat.mod_lt _ (by decide)⟩

/-- The body's block cost at a point is the cost of the pair of rows the blocks hold. -/
theorem blockCost_eq (c : Dev nD) (t : Fin cfg0.N) (r : Fin 1024) (R : Fin 16384) (hR : R.val = 1024 * (t.val / 16) + r.val)
    (cc : Fin 1024) : blockCost (xblk m c t) (yblk m c t) (pblk m c t) r cc = rowCost m c R (col (cb t) cc) := by
  show blockCost _ _ _ r cc = cost (X m c) (Y m c) (P m c) R (col (cb t) cc)
  unfold blockCost cost
  have hC : (col (cb t) cc).val = 1024 * (t.val % 16) + cc.val := rfl
  rw [pblk_apply m c t cc _ hC]
  refine congrArg (· - _) ?_
  refine congr (congrArg HSub.hSub (congr (congrArg HAdd.hAdd ?_) ?_)) (congrArg (two * ·) ?_)
  · exact Finset.sum_congr rfl fun k _ => by rw [xblk_apply m c t r k R hR]
  · exact Finset.sum_congr rfl fun k _ => by rw [yblk_apply m c t cc k _ hC]
  · exact Finset.sum_congr rfl fun k _ => by rw [xblk_apply m c t r k R hR, yblk_apply m c t cc k _ hC]

/-- So the least block cost at a point is the row's least cost on the point's column block. -/
theorem blockFold_eq (c : Dev nD) (t : Fin cfg0.N) (r : Fin 1024) (R : Fin 16384) (hR : R.val = 1024 * (t.val / 16) + r.val) :
    (Finset.univ : Finset (Fin 1024)).fold min pinf (blockCost (xblk m c t) (yblk m c t) (pblk m c t) r)
      = blockMin (rowCost m c R) (cb t) := by
  unfold blockMin
  exact congrArg (Finset.fold min pinf · Finset.univ) (funext fun cc => blockCost_eq m c t r R hR cc)

/-- The carried column after a point at the first column block of its row block. -/
theorem carried_first (c : Dev nD) (t : Fin cfg0.N) (h0 : t.val % 16 = 0) (r : Fin 1024) (R : Fin 16384)
    (hR : R.val = 1024 * (t.val / 16) + r.val) :
    (outsAt0 m c t.val t.isLt).2 (ix2 r (0 : Fin 1)) = min pinf (blockMin (rowCost m c R) (cb t)) := by
  have h1 : ¬t.val % 16 = 15 := by omega
  rw [outsAt0_A m c t h0 h1]
  dsimp only
  refine (congrFun (scratch_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)) (ix2 r (0 : Fin 1))).trans ?_
  refine (pay2_apply (xblk m c t) (yblk m c t) (pblk m c t) (k0_pay1 (F := Ideal)) r).trans ?_
  rw [pay1_apply, blockFold_eq m c t r R hR]

/-- The carried column after a point at a later column block: updated over what the point before left. -/
theorem carried_later (c : Dev nD) (t : Fin cfg0.N) (h0 : ¬t.val % 16 = 0) (r : Fin 1024) (R : Fin 16384)
    (hR : R.val = 1024 * (t.val / 16) + r.val) :
    (outsAt0 m c t.val t.isLt).2 (ix2 r (0 : Fin 1))
      = min ((outsAt0 m c (t.val - 1) (Nat.lt_of_le_of_lt (Nat.sub_le _ _) t.isLt)).2 (ix2 r (0 : Fin 1))) (blockMin (rowCost m c R) (cb t)) := by
  by_cases h1 : t.val % 16 = 15
  · rw [outsAt0_C m c t h0 h1]
    dsimp only
    refine (congrFun (scratch_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) (ix2 r (0 : Fin 1))).trans ?_
    refine (pay2_apply (xblk m c t) (yblk m c t) (pblk m c t) _ r).trans ?_
    rw [blockFold_eq m c t r R hR]
  · rw [outsAt0_B m c t h0 h1]
    dsimp only
    refine (congrFun (scratch_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2) (ix2 r (0 : Fin 1))).trans ?_
    refine (pay2_apply (xblk m c t) (yblk m c t) (pblk m c t) _ r).trans ?_
    rw [blockFold_eq m c t r R hR]

/-- THE CARRIED COLUMN, point by point: at row `r` it is the running minimum of the row's costs over the column blocks
    walked so far in the row block. -/
theorem carried_eq (c : Dev nD) : ∀ (n : ℕ) (hn : n < cfg0.N) (r : Fin 1024) (R : Fin 16384) (hR : R.val = 1024 * (n / 16) + r.val),
    (outsAt0 m c n hn).2 (ix2 r (0 : Fin 1)) = runMin (rowCost m c R) (n % 16) (Nat.mod_lt _ (by decide))
  | 0, hn, r, R, hR => by
    rw [carried_first m c ⟨0, hn⟩ rfl r R hR]
    exact (runMin_zero _ _).symm
  | n + 1, hn, r, R, hR => by
    by_cases h0 : (n + 1) % 16 = 0
    · rw [carried_first m c ⟨n + 1, hn⟩ h0 r R hR]
      rw [runMin_congr (rowCost m c R) h0 (Nat.mod_lt _ (by decide)) (by decide), runMin_zero]
      exact congrArg (fun j => min pinf (blockMin (rowCost m c R) j)) (Fin.ext h0)
    · rw [carried_later m c ⟨n + 1, hn⟩ h0 r R hR]
      have hdiv : (n + 1) / 16 = n / 16 := by omega
      have hmod : (n + 1) % 16 = n % 16 + 1 := by omega
      have hlt : n % 16 + 1 < 16 := by omega
      show min ((outsAt0 m c n _).2 (ix2 r (0 : Fin 1))) _ = _
      rw [carried_eq c n (Nat.lt_of_succ_lt hn) r R (by rw [hR, hdiv]),
        runMin_congr (rowCost m c R) hmod (Nat.mod_lt _ (by decide)) hlt, runMin_succ]
      exact congrArg (fun j => min _ (blockMin (rowCost m c R) j)) (Fin.ext hmod)

/-- The result array of the kernel call: each row's least cost over all columns. -/
def minima (c : Dev nD) : Buf (Elt Ideal) ((c.tc : Thread nD τ).loc main_v1) :=
  fun i : S16384x1.Idx => rowMin (X m c) (Y m c) (P m c) ⟨(i 0).val, idx2_lt0 i⟩

/-- A column that agrees, row by row, with an array read through a point's output block is that block of the array
    (the output block is written back whole). -/
theorem cut_eq_read (c : Dev nD) (t : Fin cfg0.N) (o : Vec Ideal S1024x1 .f32)
    (g : Buf (Elt Ideal) ((c.tc : Thread nD τ).loc main_v1))
    (h : ∀ r : Fin 1024, o (ix2 r (0 : Fin 1)) = g (((cfg0.win 3).blk t).view.emb (ix2 r (0 : Fin 1)))) :
    (cfg0.win 3).cut (grid0.coords t) o = ((cfg0.win 3).blk t).view.read (Elt Ideal) g := by
  funext j
  obtain ⟨r, u, rfl⟩ : ∃ (r : Fin 1024) (u : Fin 1), j = ix2 r u := ⟨j 0, j 1, eq_ix2 j⟩
  obtain rfl : u = 0 := Subsingleton.elim _ _
  exact h r

/-- WHAT A FLUSHING POINT WRITES BACK — the last column block of a row block — is its block of the rows' minima. -/
theorem flushed_eq (c : Dev nD) (t : Fin cfg0.N) (hf : (cfg0.win 3).flush t = true) :
    (dats m 0 c).flushed 3 t = ((cfg0.win 3).blk t).view.read (Elt Ideal) (minima m c) := by
  have h1 : t.val % 16 = 15 := (flush0_3 t).mp hf
  have h0 : ¬t.val % 16 = 0 := by omega
  have hN : t.val < 256 := lt_of_lt_of_eq t.isLt (N_eq)
  obtain ⟨-, -, -, -, -, -, e0, e1⟩ := idx_facts t
  show (cfg0.win 3).cut (grid0.coords t) ((dats m 0 c).after 3 t) = _
  rw [after0_3]
  refine cut_eq_read c t _ _ fun r => ?_
  have hR : 1024 * (t.val / 16) + r.val < 16384 := by have := r.isLt; omega
  -- the output block is a copy of the carried column, just updated
  have hcopy : (outsAt0 m c t.val t.isLt).1 = (outsAt0 m c t.val t.isLt).2 := by
    rw [outsAt0_C m c t h0 h1]
    dsimp only
    exact (out_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) _).trans
      (scratch_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) _).symm
  rw [hcopy, carried_eq m c t.val t.isLt r ⟨1024 * (t.val / 16) + r.val, hR⟩ rfl,
    runMin_congr (rowCost m c _) h1 (Nat.mod_lt _ (by decide)) (by decide), runMin_last]
  unfold minima rowMin
  refine congrArg (fun R => Finset.fold min pinf (cost (X m c) (Y m c) (P m c) R) Finset.univ) (Fin.ext ?_)
  show 1024 * (t.val / 16) + r.val = win0_3.index t (0 : Fin 2) * 1024 + 1 * r.val
  omega

/-- An index of the result array is in point `t`'s block iff each coordinate is in the block's range on its axis. -/
theorem mem_blk (t : Fin cfg0.N) (i : S16384x1.Idx) :
    i ∈ ((cfg0.win 3).blk t).view.set ↔ ∀ a : Fin 2, win0_3.index t a * S1024x1.size a ≤ (i a).val ∧ (i a).val < win0_3.index t a * S1024x1.size a + S1024x1.size a := by
  show i ∈ ((View.whole main_v1).slice (win0_3.rect t)).set ↔ _
  rw [View.set_slice_whole, Rect.mem_set_unit]
  exact Iff.rfl

/-- Every row of the result array lies in the block flushed at the last column block of its row block. -/
theorem covered (i : S16384x1.Idx) : ∃ t : Fin cfg0.N, (cfg0.win 3).flush t = true ∧ i ∈ ((cfg0.win 3).blk t).view.set := by
  have hi0 : (i 0).val < 16384 := idx2_lt0 i
  have hi1 : (i 1).val < 1 := idx2_lt1 i
  let t : Fin cfg0.N := ⟨16 * ((i 0).val / 1024) + 15, by rw [N_eq]; omega⟩
  have htv : t.val = 16 * ((i 0).val / 1024) + 15 := rfl
  obtain ⟨-, -, -, -, -, -, e0, e1⟩ := idx_facts t
  refine ⟨t, (flush0_3 t).mpr (by omega), ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1 ≤ (i 1).val ∧ (i 1).val < win0_3.index t (1 : Fin 2) * 1 + 1; omega

/-- THE RESULT ARRAY after the kernel call: the rows' minima. -/
theorem final (c : Dev nD) : (dats m 0 c).arrAt 3 cfg0.N = minima m c :=
  (dats m 0 c).arrAt_eq_of_cover 3 (minima m c) (flushed_eq m c) covered

end Cert.KernelIdeal.RowMin

end
-- ==== Proof.KernelRun.lean ====
/-
  The program's result after the kernel call, and the run re-posted with it.

  After the call the program sums the result array (a column of 16384 minima) and divides by 16384, sums the
  potentials and divides by 16384, and adds the two quotients.
-/
import proofs.«116589_j26010321944637_1_alg».proof.Proof.KernelValue
import Idealize.ShloMosaic.Lib.Pipeline.Value
import Idealize.ShloMosaic.Lib.StableHlo.Run

noncomputable section

open Idealize.ShloMosaic Idealize.ShloMosaic.TcCoe Idealize.SL.Sem
open Idealize.ShloMosaic.Pipeline (Dat)

namespace Cert.KernelIdeal.RowMin

open Cert.KernelIdeal Cert.KernelIdeal.Gen Idealize.ShloMosaic.ValueIdx Cert.Semidual

variable (m : (ℓ : Loc nD τ sig) → Buf (Elt Ideal) ℓ) (ρ : Dev nD → PrngReg)

/-- The program's result: the mean of the rows' minima plus the mean of the potentials, as the host computes them. -/
def result (c : Dev nD) : Buf (Elt Ideal) ((c.tc : Thread nD τ).loc main_v6) :=
  addf (F := Ideal)
    (Host.divf (F := Ideal) (Host.reduceAdd (F := Ideal) (minima m c) (constant (F := Ideal) S_ .f32 0x00000000#32) reducesTo_S16384x1_S_d0_1 h_S_)
      (constant (F := Ideal) S_ .f32 0x46800000#32))
    (Host.divf (F := Ideal) (Host.reduceAdd (F := Ideal) (m ((c.tc : Thread nD τ).loc main_arg2)) (constant (F := Ideal) S_ .f32 0x00000000#32) reducesTo_S16384_S_d0 h_S_)
      (constant (F := Ideal) S_ .f32 0x46800000#32))

/-- The host operations after the call, run over the call's result array, leave the result. -/
theorem tail_eq (c : Dev nD) : Pipeline.afterTail₀ cfgs (dats m) 0 (V0 m) [hostOps1] c main_v6 = result m c := by
  unfold Pipeline.afterTail₀
  show StableHlo.after hostOps1 _ (Proc.devRef .tc main_v6) = _
  after_results
  have e1 : Pipeline.withArrays (cfgs 0).spec c (V0 m c) (fun w => (dats m 0 c).arrAt w (cfgs 0).N) (Proc.devRef .tc main_v1)
      = minima m c :=
    (Pipeline.withArrays_arr spec0 launch0.win.arr_inj c _ _ 3).trans (final m c)
  have e2 : Pipeline.withArrays (cfgs 0).spec c (V0 m c) (fun w => (dats m 0 c).arrAt w (cfgs 0).N) (Proc.devRef .tc main_arg2)
      = m ((c.tc : Thread nD τ).loc main_arg2) :=
    (Pipeline.withArrays_of_ne _ c (V0 m c) _ main_arg2 (by exact (by decide : ∀ w, Pipeline.arrRef spec0 w ≠ main_arg2))).trans
      (V_main_arg2 m c)
  rw [e1, e2]
  rfl

/-- THE RUN, READ: every weakly fair execution terminates with the program's result at `result` and the arguments unchanged. -/
theorem run : θ_run defs (onTc (τ := τ) (main (F := Ideal))) ⟨m, fun _ => 0, ρ⟩ fun r => ∀ c : Dev nD,
      r.2.mem ((c.tc : Thread nD τ).loc main_v6) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v6 (Pipeline.mem_restRefs_of main_v6 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.RowMin

end
-- ==== Proof.RefValue.lean ====
/-
  The reference, read at an index.

  Its cost matrix at `(r, c)` is `(|x r|² + |y c|²) − 2·⟨x r, y c⟩ − P c`: the two squared norms are host sums over the
  512 dimensions (from zero), broadcast along columns and along rows; the inner products are one `dot_general` of
  `X` with `Y` transposed; the potentials are broadcast along rows. A row's value is the host's minimum-reduce of
  that row over all columns, from `+∞`.
-/
import proofs.«116589_j26010321944637_1_alg».proof.Proof.Gen.ReferenceIdeal.Read
import proofs.«116589_j26010321944637_1_alg».proof.Proof.SemidualSpec
import Idealize.ShloMosaic.Lib.ValueIdx
import Idealize.ShloMosaic.PureOps.Ideal.Laws

noncomputable section

open Idealize.ShloMosaic Idealize.ShloMosaic.TcCoe Idealize.SL.Sem

namespace Cert.ReferenceIdeal.RowMin

open Cert.ReferenceIdeal Cert.ReferenceIdeal.Gen Cert.ReferenceIdeal.Read Idealize.ShloMosaic.ValueIdx Cert.Semidual

variable (x0 x1 : (⟨S16384x512, .f32⟩ : BufTy).Contents (Elt Ideal)) (x2 : (⟨S16384, .f32⟩ : BufTy).Contents (Elt Ideal))

/-- The arguments as coordinate-indexed families. -/
def X (r : Fin 16384) (k : Fin 512) : EReal := x0 (ix2 r k)
def Y (r : Fin 16384) (k : Fin 512) : EReal := x1 (ix2 r k)
def P (j : Fin 16384) : EReal := x2 (ix1 j)

/-! The composed index maps of the generated reading, at `(r, c)`. -/

theorem idx_x2 (r c : Fin 16384) (k : Fin 512) : idx_main_v1 (idx_main_v2 (idx_main_v6 (ix2 r c))) k = ix2 r k :=
  funext fun a => Fin.ext (by match a with | ⟨0, _⟩ => rfl | ⟨1, _⟩ => rfl)
theorem idx_y2 (r c : Fin 16384) (k : Fin 512) : idx_main_v4 (idx_main_v5 (idx_main_v7 (ix2 r c))) k = ix2 c k :=
  funext fun a => Fin.ext (by match a with | ⟨0, _⟩ => rfl | ⟨1, _⟩ => rfl)
theorem idx_l (r c : Fin 16384) (k : Fin 512) : lidx_main_v10 (ix2 r c) k = ix2 r k :=
  funext fun a => Fin.ext (by match a with | ⟨0, _⟩ => rfl | ⟨1, _⟩ => rfl)
theorem idx_r (r c : Fin 16384) (k : Fin 512) : idx_main_v9 (ridx_main_v10 (ix2 r c) k) = ix2 c k :=
  funext fun a => Fin.ext (by match a with | ⟨0, _⟩ => rfl | ⟨1, _⟩ => rfl)
theorem idx_p (r c : Fin 16384) : idx_main_v14 (idx_main_v15 (ix2 r c)) = ix1 c :=
  funext fun a => Fin.ext (by match a with | ⟨0, _⟩ => rfl)

/-- The cost matrix at `(r, c)`. -/
theorem cost_apply (r c : Fin 16384) :
    val_main_v16 (F := Ideal) x0 x1 x2 (ix2 r c) = cost (X x0) (Y x1) (P x2) r c := by
  rw [val_main_v16_apply, val_main_v13_apply, val_main_v8_apply, val_main_v6_apply, val_main_v2_apply, val_main_v1_apply,
    val_main_v7_apply, val_main_v5_apply, val_main_v4_apply, val_main_v12_apply, val_main_v11_apply, val_main_v10_apply,
    val_main_v15_apply, val_main_v14_apply]
  simp only [val_main_v0_apply, val_main_v3_apply, val_main_v9_apply, val_main_cst_apply, val_main_cst_0_apply,
    val_main_cst_1_apply, idx_x2, idx_y2, idx_l, idx_r, idx_p, Ideal.subf_def, Ideal.addf_def, Ideal.mulf_def,
    Ideal.ofBits_def, Ideal.ofBits_zero_f32, zero_add]
  rfl

/-- A row's value: the host's minimum-reduce over all columns, from `+∞`. -/
theorem rowMin_apply (r : Fin 16384) :
    val_main_v17 (F := Ideal) x0 x1 x2 (ix1 r) = rowMin (X x0) (Y x1) (P x2) r := by
  unfold val_main_v17
  have hred : S16384x16384.Reduces [1] S16384 := by decide
  have key := Host.reduce_eq_fold_single (FloatOps.minimumf (F := Ideal) (φ := .f32)) (val_main_v16 (F := Ideal) x0 x1 x2)
    (val_main_cst_2 (F := Ideal)) reducesTo_S16384x16384_S16384_d1 hred h_S_ (ix1 r)
  refine key.trans ?_
  unfold rowMin
  have e : (val_main_v16 (F := Ideal) x0 x1 x2 ∘ hred.lift (ix1 r))
      = cost (X x0) (Y x1) (P x2) r :=
    funext fun c => (congrArg (val_main_v16 (F := Ideal) x0 x1 x2)
      (funext fun a => Fin.ext (by match a with | ⟨0, _⟩ => rfl | ⟨1, _⟩ => rfl))).trans (cost_apply x0 x1 x2 r c)
  rw [e]
  rfl

end Cert.ReferenceIdeal.RowMin

end
-- ==== Proof.Bridge.lean ====
/-
  The two programs' results are one function of the arguments.

  Both end by averaging a family of 16384 row values and the 16384 potentials and adding the averages; the host's
  sum of a family is its initial zero plus the sum over the family's indices. The kernel's row values sit in a
  column `[16384, 1]`, the reference's in a vector `[16384]`: both sums are the sum over the 16384 rows of the row's
  least cost, and the rows' least costs are the same numbers (the kernel's, by the block-by-block walk; the
  reference's, by one minimum over all columns).
-/
import proofs.«116589_j26010321944637_1_alg».proof.Proof.KernelRun
import proofs.«116589_j26010321944637_1_alg».proof.Proof.RefValue

noncomputable section

open Idealize.ShloMosaic Idealize.ShloMosaic.TcCoe Idealize.SL.Sem

namespace Cert.Semidual

open Idealize.ShloMosaic.ValueIdx

/-- An argument matrix as a family over its two coordinates, and an argument vector over its one. -/
def fam2 (a : (⟨2, ![16384, 512]⟩ : Shape).Idx → EReal) (r : Fin 16384) (k : Fin 512) : EReal := a (ix2 r k)
def fam1 (a : (⟨1, ![16384]⟩ : Shape).Idx → EReal) (j : Fin 16384) : EReal := a (ix1 j)

/-- The last lines of both programs: each of two sums divided by 16384, the quotients added. -/
def meanPair (s1 s2 : (⟨0, ![]⟩ : Shape).Idx → EReal) : (⟨0, ![]⟩ : Shape).Idx → EReal :=
  addf (F := Ideal) (Host.divf (F := Ideal) s1 (constant (F := Ideal) ⟨0, ![]⟩ .f32 0x46800000#32))
    (Host.divf (F := Ideal) s2 (constant (F := Ideal) ⟨0, ![]⟩ .f32 0x46800000#32))

/-- The common value: the mean of the rows' least costs plus the mean of the potentials, as the host's operations give them. -/
def loss (a0 a1 : (⟨2, ![16384, 512]⟩ : Shape).Idx → EReal) (a2 : (⟨1, ![16384]⟩ : Shape).Idx → EReal) :
    (⟨0, ![]⟩ : Shape).Idx → EReal :=
  meanPair (fun _ => Ideal.ofBits .f32 0x00000000#32 + ∑ r : Fin 16384, rowMin (fam2 a0) (fam2 a1) (fam1 a2) r)
    (fun _ => Ideal.ofBits .f32 0x00000000#32 + ∑ j : Fin 16384, fam1 a2 j)

end Cert.Semidual

namespace Cert.Proof.Bridge

open Idealize.ShloMosaic.ValueIdx Cert.Semidual Cert.Lib.ColumnForms

section Kernel
open Cert.KernelIdeal Cert.KernelIdeal.Gen
variable (m : (ℓ : Loc nD τ sig) → Buf (Elt Ideal) ℓ)

/-- The kernel's sum of its result column: zero plus the sum over the rows of the row's least cost. -/
theorem kernel_sum (c : Dev nD) :
    Host.reduceAdd (F := Ideal) (Cert.KernelIdeal.RowMin.minima m c) (constant (F := Ideal) S_ .f32 0x00000000#32)
        Facts₀.reducesTo_S16384x1_S_d0_1 Facts₀.h_S_
      = fun _ => Ideal.ofBits .f32 0x00000000#32
        + ∑ r : Fin 16384, rowMin (fam2 (m ((c.tc : Thread nD τ).loc main_arg0))) (fam2 (m ((c.tc : Thread nD τ).loc main_arg1)))
            (fam1 (m ((c.tc : Thread nD τ).loc main_arg2))) r := by
  funext i
  simp only [Host.reduceAdd, Ideal.hostReduceAdd_def]
  refine (Ideal.hostReduceAdd_total Facts₀.reducesTo_S16384x1_S_d0_1 (fun b => b.elim0) _ _ i).trans ?_
  refine congrArg (Ideal.ofBits .f32 0x00000000#32 + ·) ?_
  exact (sum_col _).trans (Finset.sum_congr rfl fun a _ => rfl)

/-- Its sum of the potentials. -/
theorem kernel_psum (c : Dev nD) :
    Host.reduceAdd (F := Ideal) (m ((c.tc : Thread nD τ).loc main_arg2)) (constant (F := Ideal) S_ .f32 0x00000000#32)
        Facts₀.reducesTo_S16384_S_d0 Facts₀.h_S_
      = fun _ => Ideal.ofBits .f32 0x00000000#32 + ∑ j : Fin 16384, fam1 (m ((c.tc : Thread nD τ).loc main_arg2)) j := by
  funext i
  simp only [Host.reduceAdd, Ideal.hostReduceAdd_def]
  refine (Ideal.hostReduceAdd_total Facts₀.reducesTo_S16384_S_d0 (fun b => b.elim0) _ _ i).trans ?_
  refine congrArg (Ideal.ofBits .f32 0x00000000#32 + ·) ?_
  exact (sum_idx1 _).trans (Finset.sum_congr rfl fun a _ => rfl)

/-- The kernel's result is the common value of its argument arrays. -/
theorem kernel_result (c : Dev nD) : Cert.KernelIdeal.RowMin.result m c
    = loss (m ((c.tc : Thread nD τ).loc main_arg0)) (m ((c.tc : Thread nD τ).loc main_arg1)) (m ((c.tc : Thread nD τ).loc main_arg2)) := by
  unfold Cert.KernelIdeal.RowMin.result
  rw [kernel_sum m c, kernel_psum m c]
  rfl

end Kernel

section Reference
open Cert.ReferenceIdeal Cert.ReferenceIdeal.Gen Cert.ReferenceIdeal.Read
variable (x0 x1 : (⟨S16384x512, .f32⟩ : BufTy).Contents (Elt Ideal)) (x2 : (⟨S16384, .f32⟩ : BufTy).Contents (Elt Ideal))

/-- The reference's sum of its row values: zero plus the same sum. -/
theorem ref_sum :
    Host.reduceAdd (F := Ideal) (val_main_v17 (F := Ideal) x0 x1 x2) (val_main_cst_3 (F := Ideal))
        Facts₀.reducesTo_S16384_S_d0 Facts₀.h_S_
      = fun _ => Ideal.ofBits .f32 0x00000000#32 + ∑ r : Fin 16384, rowMin (fam2 x0) (fam2 x1) (fam1 x2) r := by
  funext i
  simp only [Host.reduceAdd, Ideal.hostReduceAdd_def]
  refine (Ideal.hostReduceAdd_total Facts₀.reducesTo_S16384_S_d0 (fun b => b.elim0) _ _ i).trans ?_
  refine congrArg (Ideal.ofBits .f32 0x00000000#32 + ·) ?_
  exact (sum_idx1 _).trans (Finset.sum_congr rfl fun a _ => Cert.ReferenceIdeal.RowMin.rowMin_apply x0 x1 x2 a)

/-- Its sum of the potentials. -/
theorem ref_psum :
    Host.reduceAdd (F := Ideal) x2 (val_main_cst_5 (F := Ideal)) Facts₀.reducesTo_S16384_S_d0 Facts₀.h_S_
      = fun _ => Ideal.ofBits .f32 0x00000000#32 + ∑ j : Fin 16384, fam1 x2 j := by
  funext i
  simp only [Host.reduceAdd, Ideal.hostReduceAdd_def]
  refine (Ideal.hostReduceAdd_total Facts₀.reducesTo_S16384_S_d0 (fun b => b.elim0) _ _ i).trans ?_
  refine congrArg (Ideal.ofBits .f32 0x00000000#32 + ·) ?_
  exact (sum_idx1 _).trans (Finset.sum_congr rfl fun a _ => rfl)

/-- The reference's result is the common value of its argument arrays. -/
theorem ref_result : val_main_v22 (F := Ideal) x0 x1 x2 = loss x0 x1 x2 := by
  unfold val_main_v22 val_main_v19 val_main_v21 val_main_v18 val_main_v20
  rw [ref_sum x0 x1 x2, ref_psum x2]
  rfl

end Reference

/-- THE BRIDGE: the reference's result, of the kernel's argument arrays, is the kernel's result. -/
theorem result_eq (m : (ℓ : Loc Cert.KernelIdeal.nD Cert.KernelIdeal.τ Cert.KernelIdeal.sig) → Buf (Elt Ideal) ℓ)
    (c : Dev Cert.KernelIdeal.nD) :
    Cert.ReferenceIdeal.Read.val_main_v22 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
      = Cert.KernelIdeal.RowMin.result m c :=
  (ref_result _ _ _).trans (kernel_result m c).symm

end Cert.Proof.Bridge

end
-- ==== Proof.lean ====
/-
  The kernel and its reference compute one number: for 16384 points `x r` and 16384 points `y c` in 512 dimensions
  and a potential `P`, the mean over `r` of `min over c of (|x r|² + |y c|² − 2·⟨x r, y c⟩ − P c)`, plus the mean of `P`.

  The reference forms the whole 16384 × 16384 cost matrix and takes each row's minimum. The kernel never forms it:
  it walks a 16 × 16 grid of 1024 × 1024 tiles; within a row block it keeps, per row, a running minimum that starts
  at `+∞` at the first column block, takes each tile's row minima in turn, and is written out after the last column
  block. Over the extended reals a running minimum over consecutive blocks of columns is the minimum over all the
  columns (a lattice fact: nothing needs the inputs finite, so the precondition is never opened), the tile's entries are
  the matrix's entries (a change of float format is the identity, and a product into a zero accumulator is the host's
  contraction), and the two averages are taken by the same host operations on both sides.

  Frames: the kernel's two frames are the generated ones; the reference's frame is its generated run with the result
  dropped. The ideal pass rewrote nothing, so `preserves` is `True`.
-/
import proofs.«116589_j26010321944637_1_alg».proof.Defs
import proofs.«116589_j26010321944637_1_alg».proof.Proof.Gen.Kernel
import proofs.«116589_j26010321944637_1_alg».proof.Proof.Gen.Kernel.Skeleton
import proofs.«116589_j26010321944637_1_alg».proof.Proof.Gen.Kernel.Launch
import proofs.«116589_j26010321944637_1_alg».proof.Proof.Gen.Kernel.Points
import proofs.«116589_j26010321944637_1_alg».proof.Proof.Gen.Kernel.Frame
import proofs.«116589_j26010321944637_1_alg».proof.Proof.Gen.KernelIdeal
import proofs.«116589_j26010321944637_1_alg».proof.Proof.Gen.KernelIdeal.Skeleton
import proofs.«116589_j26010321944637_1_alg».proof.Proof.Gen.KernelIdeal.Launch
import proofs.«116589_j26010321944637_1_alg».proof.Proof.Gen.KernelIdeal.Points
import proofs.«116589_j26010321944637_1_alg».proof.Proof.Gen.KernelIdeal.Frame
import proofs.«116589_j26010321944637_1_alg».proof.Proof.Gen.ReferenceIdeal
import proofs.«116589_j26010321944637_1_alg».proof.Proof.Gen.Pre_finite_inputs
import proofs.«116589_j26010321944637_1_alg».proof.Proof.Gen.ReferenceIdeal.Run
import proofs.«116589_j26010321944637_1_alg».proof.Proof.Gen.ReferenceIdeal.Read
import proofs.«116589_j26010321944637_1_alg».proof.Proof.Bridge
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Over the extended reals the kernel's result is the mean of the rows' least costs plus the mean of the potentials
    (the run read through the grid), and the reference's, from arguments that agree, is the same number. -/
theorem algebraic : Cert.algebraic_KernelIdeal_ReferenceIdeal := by
  intro m ρ m' ρ' _ hagree
  refine ⟨fun c => Cert.KernelIdeal.RowMin.result m c, Cert.KernelIdeal.RowMin.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v22_eq _ _ _).trans (Cert.Proof.Bridge.result_eq m c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
